-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S8192x128 : Shape := ⟨2, ![8192, 128]⟩
abbrev S512x4096 : Shape := ⟨2, ![512, 4096]⟩
abbrev S512x128 : Shape := ⟨2, ![512, 128]⟩
abbrev S8192x100 : Shape := ⟨2, ![8192, 100]⟩

abbrev nBuf : Space → Nat
  | .hbm => 10
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .i32⟩
  | .hbm, ⟨2, _⟩ => ⟨S4096x1, .i32⟩
  | .hbm, ⟨3, _⟩ => ⟨S1x128, .i32⟩
  | .hbm, ⟨4, _⟩ => ⟨S4096x128, .i32⟩
  | .hbm, ⟨5, _⟩ => ⟨S4096x128, .i32⟩
  | .hbm, ⟨6, _⟩ => ⟨S4096x128, .i1⟩
  | .hbm, ⟨7, _⟩ => ⟨S4096x128, .bf16⟩
  | .hbm, ⟨8, _⟩ => ⟨S8192x128, .f32⟩
  | .hbm, ⟨9, _⟩ => ⟨S8192x100, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S512x128, .f32⟩
  | .local _ .vmem, ⟨4, _⟩ => ⟨S512x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x128_S512x128_0_0 : ∀ a, (![0, 0] : Fin 2 → Nat) a + S512x128.size a ≤ S512x128.size a
  h_S512x128 : 0 < S512x128.numel
  slices_S8192x128_S8192x100_0_0 : S8192x128.Slices ![0, 0] S8192x100
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S4096x8192 : Shape := ⟨2, ![4096, 8192]⟩
abbrev S_ : Shape := ⟨0, ![]⟩
abbrev S100x8192 : Shape := ⟨2, ![100, 8192]⟩
abbrev S4096x1 : Shape := ⟨2, ![4096, 1]⟩
abbrev S8192x100 : Shape := ⟨2, ![8192, 100]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .i32⟩
  | .hbm, ⟨2, _⟩ => ⟨S4096x8192, .f32⟩
  | .hbm, ⟨3, _⟩ => ⟨S_, .f32⟩
  | .hbm, ⟨4, _⟩ => ⟨S100x8192, .f32⟩
  | .hbm, ⟨5, _⟩ => ⟨S4096x1, .i32⟩
  | .hbm, ⟨6, _⟩ => ⟨S100x8192, .f32⟩
  | .hbm, ⟨7, _⟩ => ⟨S8192x100, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S8192x4096_S4096x8192_1_0 : S8192x4096.Transposes [1, 0] S4096x8192
  bcast_S_S100x8192 : S_.BroadcastsInDim S100x8192 (![] : Fin 0 → Fin S100x8192.rank)
  bcast_S4096_S4096x1_0 : S4096.BroadcastsInDim S4096x1 (![0] : Fin 1 → Fin S4096x1.rank)
  transposes_S100x8192_S8192x100_1_0 : S100x8192.Transposes [1, 0] S8192x100
  scatter_S100x8192_S4096x1_S4096x8192_1_0_0_1_wf : ScatterDims.WF S100x8192 S4096x1 S4096x8192 [1] [0] [0] 1

variable [Facts₀]

def scatter_S100x8192_S4096x1_S4096x8192_1_0_0_1 : ScatterDims S100x8192 S4096x1 S4096x8192 where
  updateWindowDims := [1]
  insertedWindowDims := [0]
  scatterDimsToOperandDims := [0]
  indexVectorDim := 1
  wf := scatter_S100x8192_S4096x1_S4096x8192_1_0_0_1_wf

class Facts : Prop extends Facts₀ where

variable [Facts]
-- ==== Proof.Spec.lean ====
/-
  Sums of columns grouped by label, as one function of the two argument arrays.

  `values` is an 8192 × 4096 array of extended reals and `labels` a vector of 4096 words. Entry `(b, c)` of the
  result, for `c < 100`, is the sum of `values (b, k)` over the columns `k` whose label is the word `c`. Written with a
  0/1 weight per column, this is the sum over all `k` of `values (b, k) · hit (labels k) c` (`segSum`): the form a
  product with a one-hot matrix takes. A scatter-add of the transposed array into a zero array takes the other form: entry
  `(c, b)` is zero plus the sum of the updates `(k, b')` that land on `(c, b)`, and update `(k, b')` lands on
  `(labels k read signed, b')` when that row is one of the 100, and nowhere otherwise. The two forms agree
  (`scatter_eq_segSum`): an update lands on `(c, b)` exactly when `b' = b` and the label, read signed, is `c`, which
  for `c < 100` says that the label is the word `c`; and `x · 1 = x`, `x · 0 = 0` for every extended real.
-/
import Idealize.ShloMosaic.PureOps.Ideal
import Idealize.ShloMosaic.Lib.ValueIdx

noncomputable section

open scoped BigOperators

namespace Cert.SegSum

open Idealize.ShloMosaic Idealize.ShloMosaic.ValueIdx

abbrev SX : Shape := ⟨2, ![8192, 4096]⟩
abbrev SL : Shape := ⟨1, ![4096]⟩
abbrev SO : Shape := ⟨2, ![8192, 100]⟩
abbrev SA : Shape := ⟨2, ![100, 8192]⟩
abbrev SI : Shape := ⟨2, ![4096, 1]⟩
abbrev SU : Shape := ⟨2, ![4096, 8192]⟩

/-- The weight of a column labelled `l` in class `c`: one when the label is the word `c`, zero otherwise. -/
def hit (l : BitVec 32) (c : ℕ) : EReal := if l = BitVec.ofNat 32 c then 1 else 0

/-- Entry `(b, c)` of the grouped column sums: every column of row `b`, weighted by whether its label is `c`. -/
def segSum (x : SX.Idx → EReal) (lab : SL.Idx → BitVec 32) : SO.Idx → EReal :=
  fun i => ∑ k : Fin 4096, x (ix2 (i 0) k) * hit (lab (ix1 k)) (i 1).val

/-- A weighted entry is the entry itself or zero. -/
theorem mul_hit (x : EReal) (l : BitVec 32) (c : ℕ) : x * hit l c = if l = BitVec.ofNat 32 c then x else 0 := by
  unfold hit; split <;> simp

/-- For a class below 2³¹, a label read signed is the class exactly when the label is the class's word. -/
theorem toInt_eq_iff (l : BitVec 32) (c : ℕ) (hc : c < 2 ^ 31) : l.toInt = (c : ℤ) ↔ l = BitVec.ofNat 32 c := by
  constructor
  · intro h
    apply BitVec.eq_of_toNat_eq
    rw [BitVec.toNat_ofNat, BitVec.toInt_eq_toNat_cond] at *
    have := l.isLt
    split at h <;> omega
  · rintro rfl
    rw [BitVec.toInt_eq_toNat_cond, BitVec.toNat_ofNat]
    have : c % 2 ^ 32 = c := Nat.mod_eq_of_lt (by omega)
    rw [this]; split <;> omega

/-! ## Where an update of the scatter lands -/

variable (wf : ScatterDims.WF SA SI SU [1] [0] [0] 1)

/-- The scatter's dimension numbers: updates' axis 1 is the window axis, the operand's axis 0 is indexed by the one
    component of each index vector. -/
abbrev dims : ScatterDims SA SI SU := ⟨[1], [0], [0], 1, wf⟩

/-- Update `j` reads its index vector at row `j 0` of the index array. -/
theorem siIdx_eq (j : SU.Idx) (c : Fin (dims wf).scatterDimsToOperandDims.length) :
    (dims wf).siIdx j c = ix2 (j 0) (0 : Fin 1) := by
  funext b
  match b with
  | ⟨0, _⟩ =>
    unfold ScatterDims.siIdx
    rw [dif_neg (show ¬ ((0 : ℕ) = 1) by decide)]
    unfold ScatterDims.siCoord
    apply Fin.ext
    rfl
  | ⟨1, _⟩ =>
    unfold ScatterDims.siIdx
    rw [dif_pos (show (1 : ℕ) = 1 from rfl)]
    apply Fin.ext
    have h : c.val < 1 := c.isLt
    show c.val = 0
    omega

theorem start0 (j : SU.Idx) (idx : IVec SI 32) :
    (dims wf).start j idx 0 = (idx (ix2 (j 0) (0 : Fin 1))).toInt := by
  unfold ScatterDims.start
  rw [dif_pos (show (0 : Fin 2) ∈ [(0 : Fin 2)] by decide), siIdx_eq]
  rfl

theorem start1 (j : SU.Idx) (idx : IVec SI 32) : (dims wf).start j idx 1 = 0 := by
  unfold ScatterDims.start
  rw [dif_neg (show (1 : Fin 2) ∉ [(0 : Fin 2)] by decide)]

theorem window0 (j : SU.Idx) : (dims wf).window j 0 = 0 := by
  unfold ScatterDims.window
  rw [dif_neg (show (0 : Fin 2) ∉ SA.kept [(0 : Fin 2)] by decide)]

theorem window1 (j : SU.Idx) : (dims wf).window j 1 = (j 1).val := by
  unfold ScatterDims.window
  rw [dif_pos (show (1 : Fin 2) ∈ SA.kept [(0 : Fin 2)] by decide)]
  rfl

/-- Update `(k, b')` lands on `(c, b)` exactly when its label, read signed, is `c` and `b' = b`. -/
theorem lands_iff (j : SU.Idx) (idx : IVec SI 32) (c : Fin 100) (b : Fin 8192) :
    (dims wf).resultIdx? j idx = some (ix2 c b) ↔ (idx (ix2 (j 0) (0 : Fin 1))).toInt = (c.val : ℤ) ∧ j 1 = b := by
  have hs0 := start0 wf j idx
  have hs1 := start1 wf j idx
  have hw0 := window0 wf j
  have hw1 := window1 wf j
  have hc := c.isLt
  have hj : (j 1).val < 8192 := (j 1).isLt
  unfold ScatterDims.resultIdx?
  split
  · rename_i h
    rw [Option.some.injEq]
    constructor
    · intro he
      have e0 := congrArg Fin.val (congrFun he 0)
      have e1 := congrArg Fin.val (congrFun he 1)
      have h0 := (h 0).1
      have e0' : ((dims wf).start j idx 0 + ((dims wf).window j 0 : ℤ)).toNat = c.val := e0
      have e1' : ((dims wf).start j idx 1 + ((dims wf).window j 1 : ℤ)).toNat = b.val := e1
      rw [hs0, hw0] at e0' h0
      rw [hs1, hw1] at e1'
      exact ⟨by omega, Fin.ext (by omega)⟩
    · rintro ⟨hl, hb⟩
      funext a
      apply Fin.ext
      match a with
      | ⟨0, _⟩ =>
        show ((dims wf).start j idx 0 + ((dims wf).window j 0 : ℤ)).toNat = c.val
        rw [hs0, hw0, hl]; omega
      | ⟨1, _⟩ =>
        show ((dims wf).start j idx 1 + ((dims wf).window j 1 : ℤ)).toNat = b.val
        rw [hs1, hw1, ← hb]; omega
  · rename_i h
    constructor
    · intro he; exact absurd he (by simp)
    · rintro ⟨hl, hb⟩
      exfalso; apply h
      intro a
      match a with
      | ⟨0, _⟩ =>
        show 0 ≤ (dims wf).start j idx 0 + ((dims wf).window j 0 : ℤ) ∧ (dims wf).start j idx 0 + ((dims wf).window j 0 : ℤ) < ((100 : ℕ) : ℤ)
        rw [hs0, hw0, hl]; omega
      | ⟨1, _⟩ =>
        show 0 ≤ (dims wf).start j idx 1 + ((dims wf).window j 1 : ℤ) ∧ (dims wf).start j idx 1 + ((dims wf).window j 1 : ℤ) < ((8192 : ℕ) : ℤ)
        rw [hs1, hw1]; omega

/-- The scatter-add at `(c, b)`: the operand's entry plus, over the columns `k`, the update `(k, b)` when column `k`'s
    label, read signed, is `c`. -/
theorem scatterAdd_apply (x : SA.Idx → EReal) (idx : IVec SI 32) (upd : SU.Idx → EReal) (c : Fin 100) (b : Fin 8192) :
    Ideal.hostScatterAdd (dims wf) x idx upd (ix2 c b)
      = x (ix2 c b) + ∑ k : Fin 4096, if (idx (ix2 k (0 : Fin 1))).toInt = (c.val : ℤ) then upd (ix2 k b) else 0 := by
  unfold Ideal.hostScatterAdd
  congr 1
  rw [Finset.sum_filter, sum_idx2]
  refine Finset.sum_congr rfl fun k _ => ?_
  have key : ∀ b' : Fin 8192, (dims wf).resultIdx? (ix2 k b') idx = some (ix2 c b)
      ↔ ((idx (ix2 k (0 : Fin 1))).toInt = (c.val : ℤ) ∧ b' = b) := fun b' => lands_iff wf (ix2 k b') idx c b
  rw [Finset.sum_congr rfl (fun b' _ => if_congr (key b') rfl rfl)]
  by_cases hl : (idx (ix2 k (0 : Fin 1))).toInt = (c.val : ℤ)
  · rw [if_pos hl, Finset.sum_congr rfl (fun b' _ => if_congr (and_iff_right hl) rfl rfl),
      Finset.sum_ite_eq' Finset.univ b (fun b' => upd (ix2 k b')), if_pos (Finset.mem_univ b)]
  · rw [if_neg hl]
    exact Finset.sum_eq_zero (fun b' _ => if_neg (fun h => hl h.1))

/-- THE TWO FORMS AGREE. Scatter-adding the transposed values (`upd (k, b) = x (b, k)`) into zeros, at the rows the labels
    name (`idx (k, 0) = lab k`), leaves at `(c, b)` the grouped column sum `segSum x lab (b, c)`. -/
theorem scatter_eq_segSum (x : SX.Idx → EReal) (lab : SL.Idx → BitVec 32) (zero : SA.Idx → EReal) (hzero : ∀ i, zero i = 0)
    (idx : IVec SI 32) (hidx : ∀ k : Fin 4096, idx (ix2 k (0 : Fin 1)) = lab (ix1 k))
    (upd : SU.Idx → EReal) (hupd : ∀ (k : Fin 4096) (b : Fin 8192), upd (ix2 k b) = x (ix2 b k)) (b : Fin 8192) (c : Fin 100) :
    Ideal.hostScatterAdd (dims wf) zero idx upd (ix2 c b) = segSum x lab (ix2 b c) := by
  rw [scatterAdd_apply, hzero, zero_add]
  show _ = ∑ k : Fin 4096, x (ix2 b k) * hit (lab (ix1 k)) c.val
  refine Finset.sum_congr rfl fun k _ => ?_
  rw [mul_hit, hidx, hupd]
  exact if_congr (toInt_eq_iff _ _ (by have := c.isLt; omega)) rfl rfl

end Cert.SegSum

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.KernelValue.lean ====
/-
  What the kernel program leaves in its result array, at the ideal values.

  The program first builds the one-hot matrix of the labels: entry `(k, q)` is one when `labels k` is the word `q` and
  zero otherwise (`onehot_apply`). The kernel then runs over 16 row tiles of 512 rows. On tile `t` it multiplies rows
  `512 t … 512 t + 511` of `values` by the whole one-hot matrix, into zeros: entry `(p, q)` of the tile's result is the sum over
  `k` of `values (512 t + p, k) · onehot (k, q)` (`pay_apply`, narrowing to bf16 being the identity on extended reals). So
  every tile's result is a block of ONE array, `rowsTimes values onehot` (`flushed_eq`), the tiles cover the 8192 × 128 array
  (`cover`), and the array ends holding it (`final`). The last line of the program keeps columns `0 … 99`, where
  `rowsTimes values onehot` is `segSum values labels` (`slice_eq`, `run`).
-/
import proofs.«114425_j73048803770493_1_alg».proof.Proof.Gen.KernelIdeal.Frame
import proofs.«114425_j73048803770493_1_alg».proof.Proof.Spec
import proofs.«114425_j73048803770493_1_alg».proof.Proof.LibAffineRows
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.Grouped

open Cert.KernelIdeal Cert.KernelIdeal.Gen Idealize.ShloMosaic Idealize.ShloMosaic.TcCoe Idealize.SL.Sem
open Idealize.ShloMosaic.ValueIdx Cert.SegSum
open Idealize.ShloMosaic.Pipeline (Dat)

/-! ## One tile's product -/

/-- The kernel's dimension numbers are those of the plain product of a 512 × 4096 by a 4096 × 128 matrix. -/
theorem plainDot : Cert.Lib.PlainDot dot_S512x4096_S4096x128_S512x128_1_0_0_1_n_n where
  rank := rfl
  size := rfl
  l0 := fun i q => by
    unfold DotDims.lhsIdx
    rw [dif_neg (show ¬(0 : Fin S512x4096.rank) ∈ dot_S512x4096_S4096x128_S512x128_1_0_0_1_n_n.lhsBatch by decide),
      dif_pos (show (0 : Fin S512x4096.rank) ∈ dot_S512x4096_S4096x128_S512x128_1_0_0_1_n_n.lhsNonContracting by decide)]
    rfl
  l1 := fun i q => dot_S512x4096_S4096x128_S512x128_1_0_0_1_n_n.lhsIdx_val_of_single rfl i q
  r0 := fun i q => dot_S512x4096_S4096x128_S512x128_1_0_0_1_n_n.rhsIdx_val_of_single rfl i q
  r1 := fun i q => by
    unfold DotDims.rhsIdx
    rw [dif_neg (show ¬(1 : Fin S4096x128.rank) ∈ dot_S512x4096_S4096x128_S512x128_1_0_0_1_n_n.rhsBatch by decide),
      dif_pos (show (1 : Fin S4096x128.rank) ∈ dot_S512x4096_S4096x128_S512x128_1_0_0_1_n_n.rhsNonContracting by decide)]
    rfl

/-- What the body stores, at `(p, q)`: the textbook sum of row `p` of the loaded tile against column `q` of the loaded matrix. -/
theorem pay_apply (v0 : Vec Ideal S512x4096 .f32) (v2 : Vec Ideal S4096x128 .bf16) (p : Fin 512) (q : Fin 128) :
    k0_pay1 (F := Ideal) v0 v2 (ix2 p q) = ∑ k : Fin 4096, v0 (ix2 p k) * v2 (ix2 k q) := by
  unfold k0_pay1
  simp only [matmul]
  rw [Ideal.matmul_constant_zero_apply, shapeCast_self]
  exact plainDot.sum_eq (fun i => v0 i) (fun i => v2 i) p q

/-! ## The whole product -/

/-- Rows of `x` against columns of `oh`: the 8192 × 128 product, index by index. -/
def rowsTimes (x : S8192x4096.Idx → EReal) (oh : S4096x128.Idx → EReal) : S8192x128.Idx → EReal :=
  fun i => ∑ k : Fin 4096, x (ix2 (i 0) k) * oh (ix2 k (i 1))

variable (m : (ℓ : Loc nD τ sig) → Buf (Elt Ideal) ℓ) (ρ : Dev nD → PrngReg)

/-- `values` and the one-hot matrix as the kernel finds them, at their literal types. -/
abbrev xarr (c : Dev nD) : S8192x4096.Idx → EReal := V m c main_arg0
abbrev oharr (c : Dev nD) : S4096x128.Idx → EReal := V m c main_v0

theorem hz : (![0, 0] : Fin 2 → Nat) = fun _ => 0 := funext fun a => by fin_cases a <;> rfl

/-- The printed index maps over the grid: tile `t` of `values` and of the result start at row block `t`, column block 0; the
    one-hot matrix is always its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT TILE `t` WRITES BACK is block `t` of the whole product of the arrays as the kernel finds them. -/
theorem flushed_eq (c : Dev nD) (t : Fin cfg0.N) :
    (dats m 0 c).flushed 2 t = ((cfg0.win 2).blk t).view.read (Elt Ideal) (rowsTimes (V m c main_arg0) (V m c main_v0)) := by
  show (cfg0.win 2).cut (grid0.coords t) ((dats m 0 c).after 2 t) = _
  rw [after0_2]
  unfold out0_2
  rw [View.canon_unit_zero hz]
  simp only [View.ld_unit_zero (S := S512x4096) hz, View.ld_unit_zero (S := S4096x128) hz]
  obtain ⟨e0, e1, e2, e3, e4, e5⟩ := idx_facts t
  funext j
  obtain ⟨p, q, rfl⟩ : ∃ (p : Fin 512) (q : Fin 128), j = ix2 p q := ⟨j 0, j 1, eq_ix2 j⟩
  refine (pay_apply (iblk m c 0 t) (iblk m c 1 t) p q).trans ?_
  show _ = ∑ k : Fin 4096, xarr m c (ix2 ((((cfg0.win 2).blk t).view.emb (ix2 p q)) 0) k) * oharr m c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 4096 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 4096 + 1 * k.val = k.val; omega
    | ⟨1, _⟩ => show win0_1.index t (1 : Fin 2) * 128 + 1 * q.val = win0_2.index t (1 : Fin 2) * 128 + 1 * q.val; omega
  show xarr m c (((cfg0.win 0).blk t).view.emb (ix2 p k)) * oharr m c (((cfg0.win 1).blk t).view.emb (ix2 k q)) = _
  rw [h0, h1]
  rfl

/-- An index of the result array is in tile `t`'s block iff each coordinate is in the block's range on its axis. -/
theorem mem_blk (t : Fin cfg0.N) (i : S8192x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v1).slice (win0_2.rect t)).set ↔ _
  rw [View.set_slice_whole, Rect.mem_set_unit]
  exact Iff.rfl

/-- The 16 tiles cover the result array: row `r` is in tile `r / 512`. -/
theorem cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 16 := N_0
  refine ⟨⟨(i 0).val / 512, by rw [hN]; omega⟩, flush0_2 _, ?_⟩
  rw [mem_blk]
  obtain ⟨-, -, -, -, e4, e5⟩ := idx_facts ⟨(i 0).val / 512, by rw [hN]; omega⟩
  intro a
  match a with
  | ⟨0, _⟩ =>
    show win0_2.index _ (0 : Fin 2) * 512 ≤ (i 0).val ∧ (i 0).val < win0_2.index _ (0 : Fin 2) * 512 + 512
    rw [e4]; show (i 0).val / 512 * 512 ≤ (i 0).val ∧ (i 0).val < (i 0).val / 512 * 512 + 512; omega
  | ⟨1, _⟩ =>
    show win0_2.index _ (1 : Fin 2) * 128 ≤ (i 1).val ∧ (i 1).val < win0_2.index _ (1 : Fin 2) * 128 + 128
    rw [e5]; omega

/-- THE RESULT ARRAY of the kernel after the run: the whole product. -/
theorem final (c : Dev nD) : (dats m 0 c).arrAt 2 cfg0.N = rowsTimes (V m c main_arg0) (V m c main_v0) :=
  (dats m 0 c).arrAt_eq_of_cover 2 (rowsTimes (V m c main_arg0) (V m c main_v0)) (fun t _ => flushed_eq m c t) cover

/-! ## The one-hot matrix -/

/-- The matrix the kernel multiplies by, as the lines before it compute it from the labels. -/
theorem onehot_eq (c : Dev nD) : (V m c main_v0 : S4096x128.Idx → EReal) =
    uitofp (F := Ideal) .bf16 (cmpi .eq
      (broadcastInDim S4096x128 ![0, 1] bcast_S4096x1_S4096x128_0_1 (broadcastInDim S4096x1 ![0] bcast_S4096_S4096x1_0 (m ((c : Thread nD τ).loc main_arg1))))
      (broadcastInDim S4096x128 ![0, 1] bcast_S1x128_S4096x128_0_1 (iotaInDim S1x128 32 1))) := by
  show StableHlo.after hostOps0 (fun b => m (c, b)) (Proc.devRef .tc main_v0) = _
  after_results
  rfl

/-- Entry `(k, q)` of it is the weight of column `k` in class `q`. -/
theorem onehot_apply (c : Dev nD) (k : Fin 4096) (q : Fin 128) :
    (V m c main_v0 : S4096x128.Idx → EReal) (ix2 k q) = hit ((m ((c : Thread nD τ).loc main_arg1) : S4096.Idx → BitVec 32) (ix1 k)) q.val := by
  rw [onehot_eq]
  show ((((IntOp.cmpi .eq _ _).toNat : ℕ) : ℝ) : EReal) = _
  rw [broadcastInDim_apply _ bcast_S4096x1_S4096x128_0_1 _ (ix2 k q) (ix2 k (0 : Fin 1)) (fun a => by
      match a with
      | ⟨0, _⟩ => show k.val = if (4096 : ℕ) = 1 then 0 else k.val; rw [if_neg (by decide)]
      | ⟨1, _⟩ => show (0 : ℕ) = if (1 : ℕ) = 1 then 0 else q.val; rw [if_pos rfl]),
    broadcastInDim_apply _ bcast_S4096_S4096x1_0 _ (ix2 k (0 : Fin 1)) (ix1 k) (fun a => by
      match a with
      | ⟨0, _⟩ => show k.val = if (4096 : ℕ) = 1 then 0 else k.val; rw [if_neg (by decide)]),
    broadcastInDim_apply _ bcast_S1x128_S4096x128_0_1 _ (ix2 k q) (ix2 (0 : Fin 1) q) (fun a => by
      match a with
      | ⟨0, _⟩ => show (0 : ℕ) = if (1 : ℕ) = 1 then 0 else k.val; rw [if_pos rfl]
      | ⟨1, _⟩ => show q.val = if (128 : ℕ) = 1 then 0 else q.val; rw [if_neg (by decide)])]
  show ((((IntOp.cmpi .eq ((m ((c : Thread nD τ).loc main_arg1) : S4096.Idx → BitVec 32) (ix1 k)) (BitVec.ofNat 32 q.val)).toNat : ℕ) : ℝ) : EReal) = _
  unfold hit IntOp.cmpi
  by_cases h : (m ((c : Thread nD τ).loc main_arg1) : S4096.Idx → BitVec 32) (ix1 k) = BitVec.ofNat 32 q.val
  · rw [if_pos h, h]; simp
  · rw [if_neg h]; simp [h]

/-! ## The kept columns, and the run -/

/-- On columns `0 … 99` the whole product is the grouped column sums. -/
theorem slice_eq (c : Dev nD) :
    extractStridedSlice S8192x100 ![0, 0] (rowsTimes (V m c main_arg0) (V m c main_v0)) slices_S8192x128_S8192x100_0_0
      = segSum (m ((c : Thread nD τ).loc main_arg0)) (m ((c : Thread nD τ).loc main_arg1)) := by
  funext i
  obtain ⟨b, q, rfl⟩ : ∃ (b : Fin 8192) (q : Fin 100), i = ix2 b q := ⟨i 0, i 1, eq_ix2 i⟩
  rw [extractStridedSlice_apply _ _ slices_S8192x128_S8192x100_0_0 (ix2 b q) (ix2 b (⟨q.val, by have := q.isLt; omega⟩ : Fin 128)) (fun a => by
      match a with
      | ⟨0, _⟩ => show b.val = 0 + b.val; omega
      | ⟨1, _⟩ => show q.val = 0 + q.val; omega)]
  show ∑ k : Fin 4096, xarr m c (ix2 b k) * oharr m c (ix2 k (⟨q.val, _⟩ : Fin 128)) = ∑ k : Fin 4096, _ * hit _ q.val
  refine Finset.sum_congr rfl fun k _ => ?_
  have ha : xarr m c (ix2 b k) = (m ((c : Thread nD τ).loc main_arg0) : S8192x4096.Idx → EReal) (ix2 b k) :=
    congrFun (V_main_arg0 m c) _
  have hb : oharr m c (ix2 k (⟨q.val, by have := q.isLt; omega⟩ : Fin 128))
      = hit ((m ((c : Thread nD τ).loc main_arg1) : S4096.Idx → BitVec 32) (ix1 k)) q.val := onehot_apply m c k _
  exact congrArg₂ (fun (u v : EReal) => u * v) ha hb

/-- What the last line leaves in the result buffer. -/
theorem tail_eq (c : Dev nD) :
    Pipeline.afterTail₀ cfgs (dats m) 0 (V0 m) [hostOps1] c main_v2
      = segSum (m ((c : Thread nD τ).loc main_arg0)) (m ((c : Thread nD τ).loc main_arg1)) := by
  unfold Pipeline.afterTail₀
  show StableHlo.after hostOps1 _ (Proc.devRef .tc main_v2) = _
  after_results
  rw [show Pipeline.withArrays spec0 c (V0 m c) (fun w => (dats m 0 c).arrAt w cfg0.N) (Proc.devRef .tc main_v1) = _ from
    (Pipeline.withArrays_arr spec0 launch0.win.arr_inj c _ _ 2).trans (final m c)]
  exact slice_eq m c

/-- THE RUN, READ: every weakly fair execution of the kernel program ends with the result buffer at the grouped column sums
    of the arguments, and the arguments unchanged. -/
theorem run : θ_run defs (onTc (τ := τ) (main (F := Ideal))) ⟨m, fun _ => 0, ρ⟩ fun r => ∀ c : Dev nD,
      r.2.mem ((c.tc : Thread nD τ).loc main_v2) = segSum (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Grouped

end
-- ==== Proof.RefSide.lean ====
/-
  The plain program's result is the grouped column sums.

  The plain program transposes `values`, scatter-adds its rows `k` into a zero array at the rows `labels k`, and
  transposes back: entry `(b, c)` of its result is the scatter-add's entry `(c, b)`, which is `segSum values labels (b, c)`.
-/
import proofs.«114425_j73048803770493_1_alg».proof.Proof.Gen.ReferenceIdeal.Run
import proofs.«114425_j73048803770493_1_alg».proof.Proof.Gen.ReferenceIdeal.Read
import proofs.«114425_j73048803770493_1_alg».proof.Proof.Spec
import Idealize.ShloMosaic.PureOps.Ideal.Laws

noncomputable section

namespace Cert.ReferenceIdeal.Grouped

open Cert.ReferenceIdeal Cert.ReferenceIdeal.Gen Idealize.ShloMosaic Idealize.ShloMosaic.ValueIdx Cert.SegSum

/-- The plain program's result, as a stage of its two arguments, is `segSum` of them. -/
theorem result_eq (x0 : (⟨S8192x4096, .f32⟩ : BufTy).Contents (Elt Ideal)) (x1 : (⟨S4096, .i32⟩ : BufTy).Contents (Elt Ideal)) :
    Read.val_main_v4 (F := Ideal) x0 x1 = segSum x0 x1 := by
  funext i
  obtain ⟨b, c, rfl⟩ : ∃ (b : Fin 8192) (c : Fin 100), i = ix2 b c := ⟨i 0, i 1, eq_ix2 i⟩
  rw [Read.val_main_v4_apply]
  have e4 : Read.idx_main_v4 (ix2 b c) = ix2 c b := funext fun a => Fin.ext (by match a with | ⟨0, _⟩ => rfl | ⟨1, _⟩ => rfl)
  rw [e4]
  unfold Read.val_main_v3
  simp only [Host.scatterAdd]
  rw [Ideal.hostScatterAdd_def]
  refine scatter_eq_segSum scatter_S100x8192_S4096x1_S4096x8192_1_0_0_1_wf x0 x1 _ (fun i => ?_) _ (fun k => ?_) _ (fun k b => ?_) b c
  · rw [Read.val_main_v1_apply, Read.val_main_cst_apply]
    exact Ideal.ofBits_zero_f32
  · rw [Read.val_main_v2_apply]
    exact congrArg x1 (funext fun a => Fin.ext (by match a with | ⟨0, _⟩ => rfl))
  · rw [Read.val_main_v0_apply]
    exact congrArg x0 (funext fun a => Fin.ext (by match a with | ⟨0, _⟩ => rfl | ⟨1, _⟩ => rfl))

end Cert.ReferenceIdeal.Grouped

end
-- ==== Proof.lean ====
/-
  Column sums grouped by label: a product with a one-hot matrix against a scatter-add.

  Both programs take `values`, 8192 × 4096, and `labels`, 4096 words, and return an 8192 × 100 array. The kernel program
  builds the 4096 × 128 one-hot matrix of the labels, multiplies `values` by it tile by tile on the matrix unit, and keeps the
  first 100 columns. The plain program scatter-adds the columns of `values` into 100 zeroed rows, each column at the row its
  label names, a label outside `0 … 99` being dropped. Over the extended reals both compute, at `(b, c)`, the sum of
  `values (b, k)` over the columns `k` whose label is `c` (`Cert.SegSum.segSum`): a product with a 0/1 weight keeps or drops
  the entry exactly (`x · 1 = x`, `x · 0 = 0` for every extended real, infinite ones included), and a label that is no class
  below 100 contributes to no kept column on either side. The precondition is not used by the value claim.

  The frames of the two kernel programs are the generated ones; the plain program's frame is its generated run with the
  result dropped; the idealization rewrote nothing, so `preserves` has nothing to state.
-/
import proofs.«114425_j73048803770493_1_alg».proof.Defs
import proofs.«114425_j73048803770493_1_alg».proof.Proof.Gen.Kernel
import proofs.«114425_j73048803770493_1_alg».proof.Proof.Gen.Kernel.Skeleton
import proofs.«114425_j73048803770493_1_alg».proof.Proof.Gen.Kernel.Launch
import proofs.«114425_j73048803770493_1_alg».proof.Proof.Gen.Kernel.Points
import proofs.«114425_j73048803770493_1_alg».proof.Proof.Gen.Kernel.Frame
import proofs.«114425_j73048803770493_1_alg».proof.Proof.Gen.KernelIdeal
import proofs.«114425_j73048803770493_1_alg».proof.Proof.Gen.KernelIdeal.Skeleton
import proofs.«114425_j73048803770493_1_alg».proof.Proof.Gen.KernelIdeal.Launch
import proofs.«114425_j73048803770493_1_alg».proof.Proof.Gen.KernelIdeal.Points
import proofs.«114425_j73048803770493_1_alg».proof.Proof.Gen.KernelIdeal.Frame
import proofs.«114425_j73048803770493_1_alg».proof.Proof.Gen.ReferenceIdeal
import proofs.«114425_j73048803770493_1_alg».proof.Proof.Gen.ReferenceIdeal.Run
import proofs.«114425_j73048803770493_1_alg».proof.Proof.Gen.ReferenceIdeal.Read
import proofs.«114425_j73048803770493_1_alg».proof.Proof.Gen.Pre_finite_inputs
import proofs.«114425_j73048803770493_1_alg».proof.Proof.KernelValue
import proofs.«114425_j73048803770493_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with their result at the grouped column sums of arguments that agree. -/
theorem algebraic : Cert.algebraic_KernelIdeal_ReferenceIdeal := by
  intro m ρ m' ρ' _ hagree
  refine ⟨fun c => Cert.SegSum.segSum (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.Grouped.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Grouped.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
